-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x8192 : Shape := ⟨2, ![50, 8192]⟩
abbrev S8192x8192 : Shape := ⟨2, ![8192, 8192]⟩
abbrev S8192 : Shape := ⟨1, ![8192]⟩
abbrev S_ : Shape := ⟨0, ![]⟩

class Facts : Prop where
  bcast_S_S50x8192 : S_.BroadcastsInDim S50x8192 (![] : Fin 0 → Fin S50x8192.rank)
  reducesTo_S50x8192_S_d0_1 : S50x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S50x8192 .f32) (main_arg1 : FVec F S8192x8192 .f32) (main_arg2 : FVec F S8192 .f32) : IVec S_ 1 :=
  let main_v0 : FVec F S50x8192 .f32 := Host.absf main_arg0
  let main_cst : FVec F S_ .f32 := constant S_ .f32 0x7F800000#32
  let main_v1 : FVec F S50x8192 .f32 := broadcastInDim S50x8192 ![] bcast_S_S50x8192 main_cst
  let main_v2 : IVec S50x8192 1 := cmpf .olt main_v0 main_v1
  let main_c : IVec S_ 1 := constantI S_ 1 1#1
  let main_v3 : IVec S_ 1 := (fun x v => Host.reduce IntOp.andi x v reducesTo_S50x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S50x8192 : Shape := ⟨2, ![50, 8192]⟩
abbrev S8192x8192 : Shape := ⟨2, ![8192, 8192]⟩
abbrev S8192 : Shape := ⟨1, ![8192]⟩
abbrev S1x8192 : Shape := ⟨2, ![1, 8192]⟩
abbrev S50x2048 : Shape := ⟨2, ![50, 2048]⟩
abbrev S1024x2048 : Shape := ⟨2, ![1024, 2048]⟩
abbrev S1x1024 : Shape := ⟨2, ![1, 1024]⟩
abbrev S50x1024 : Shape := ⟨2, ![50, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S50x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S50x8192, .f32⟩
  | .local _ .vmem, ⟨0, _⟩ => ⟨S50x2048, .f32⟩
  | .local _ .vmem, ⟨1, _⟩ => ⟨S50x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S50x1024, .f32⟩
  | .local _ .vmem, ⟨7, _⟩ => ⟨S50x1024, .f32⟩
  | .local _ .vmem, ⟨8, _⟩ => ⟨S50x1024, .f32⟩
  | _, _ => ⟨S50x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S50x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S50x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S50x1024_S50x1024_0_0 : ∀ a, (![0, 0] : Fin 2 → Nat) a + S50x1024.size a ≤ S50x1024.size a
  h_S50x1024 : 0 < S50x1024.numel
  shapeCasts_S50x1024_S50x1024 : S50x1024.ShapeCasts S50x1024
  inb_S50x2048_S50x2048_0_0 : ∀ a, (![0, 0] : Fin 2 → Nat) a + S50x2048.size a ≤ S50x2048.size a
  h_S50x2048 : 0 < S50x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S50x1024 : S1x1024.Broadcasts S50x1024
  dot_S50x2048_S2048x1024_S50x1024_1_0_0_1_n_n_wf : DotDims.WF S50x2048 S2048x1024 S50x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x2048.size a ≤ S50x8192.size a
  hwx0_0 : ∀ i : grid0.Coords, EltTy.bits .f32 = 32 ∨ (Rect.block (s := S50x8192) S50x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S50x1024.size a ≤ S50x8192.size a
  hwx0_3 : ∀ i : grid0.Coords, EltTy.bits .f32 = 32 ∨ (Rect.block (s := S50x8192) S50x1024.size (cc0_transform_3 i) (hinb0_3 i)).WholeWords (EltTy.packing .f32)

variable [Facts₀]

def dot_S50x2048_S2048x1024_S50x1024_1_0_0_1_n_n : DotDims S50x2048 S2048x1024 S50x1024 where
  lhsContracting := [1]
  rhsContracting := [0]
  lhsNonContracting := [0]
  rhsNonContracting := [1]
  lhsBatch := []
  rhsBatch := []
  wf := dot_S50x2048_S2048x1024_S50x1024_1_0_0_1_n_n_wf

abbrev win0_0 : Pipeline.Window sig grid0 :=
  Pipeline.Window.ofSpec (Memref.whole main_arg0) S50x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S50x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50x8192 : Shape := ⟨2, ![50, 8192]⟩
abbrev S8192x8192 : Shape := ⟨2, ![8192, 8192]⟩
abbrev S8192 : Shape := ⟨1, ![8192]⟩
abbrev S1x8192 : Shape := ⟨2, ![1, 8192]⟩

abbrev nBuf : Space → Nat
  | .hbm => 7
  | .vmem => 0
  | .smem => 0
  | _ => 0

abbrev bufTy : (tb : Table) → Fin (tcTables nBuf tb) → BufTy
  | .hbm, ⟨0, _⟩ => ⟨S50x8192, .f32⟩
  | .hbm, ⟨1, _⟩ => ⟨S8192x8192, .f32⟩
  | .hbm, ⟨2, _⟩ => ⟨S8192, .f32⟩
  | .hbm, ⟨3, _⟩ => ⟨S50x8192, .f32⟩
  | .hbm, ⟨4, _⟩ => ⟨S1x8192, .f32⟩
  | .hbm, ⟨5, _⟩ => ⟨S50x8192, .f32⟩
  | .hbm, ⟨6, _⟩ => ⟨S50x8192, .f32⟩
  | _, _ => ⟨S50x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S50x8192_0_1 : S1x8192.BroadcastsInDim S50x8192 (![0, 1] : Fin 2 → Fin S50x8192.rank)
  dot_S50x8192_S8192x8192_S50x8192_1_1_0_0_n_n_wf : DotDims.WF S50x8192 S8192x8192 S50x8192 [1] [1] [0] [0] [] []

variable [Facts₀]

def dot_S50x8192_S8192x8192_S50x8192_1_1_0_0_n_n : DotDims S50x8192 S8192x8192 S50x8192 where
  lhsContracting := [1]
  rhsContracting := [1]
  lhsNonContracting := [0]
  rhsNonContracting := [0]
  lhsBatch := []
  rhsBatch := []
  wf := dot_S50x8192_S8192x8192_S50x8192_1_1_0_0_n_n_wf

class Facts : Prop extends Facts₀ where

variable [Facts]
-- ==== Proof.Pieces.lean ====
/-
  What each control case of the body leaves behind, as the stored values themselves. At the first reduction step
  the accumulator is reset and then stepped, so it ends at one step from the zero block; at the middle steps and the
  last it ends at one step from what the step before left; and at the last step the output block is the closing value
  of that same stepped accumulator and the bias block.
-/
import proofs.«101963_j30399778521256_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First reduction step: the accumulator ends one step from the zero block. -/
theorem scratch_first (c : Dev nD) (i : grid0.Coords) (arg2 : Memref sig .tc .vmem S50x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S50x1024 .f32) (harg5 : arg5.IsWhole) (arg6 : Memref sig .tc .vmem S50x1024 .f32) (harg6 : arg6.IsWhole) (hc0 : cond0_0 i) (hc1 : ¬cond0_1 i)
    (x0 : Vec F S50x2048 .f32) (x1 : Vec F S1024x2048 .f32) (x2 : Vec F S1x1024 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S50x1024) hz]
  simp only [View.readAt_eq_ld, harg2.read_unread, harg3.read_unread, View.ld_unit_zero (S := S50x2048) hz, View.ld_unit_zero (S := S1024x2048) hz, View.readCov_unit_zero (S := S50x1024) _ hz]

/-- A middle reduction step: the accumulator ends one step from what the step before left. -/
theorem scratch_middle (c : Dev nD) (i : grid0.Coords) (arg2 : Memref sig .tc .vmem S50x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S50x1024 .f32) (harg5 : arg5.IsWhole) (arg6 : Memref sig .tc .vmem S50x1024 .f32) (harg6 : arg6.IsWhole) (hc0 : ¬cond0_0 i) (hc1 : ¬cond0_1 i)
    (x0 : Vec F S50x2048 .f32) (x1 : Vec F S1024x2048 .f32) (x2 : Vec F S1x1024 .f32) (xs0 : Vec F S50x1024 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread, View.ld_unit_zero (S := S50x2048) hz, View.ld_unit_zero (S := S1024x2048) hz, View.ld_unit_zero (S := S50x1024) hz]

/-- The last reduction step: the accumulator is stepped the same way, -/
theorem scratch_last (c : Dev nD) (i : grid0.Coords) (arg2 : Memref sig .tc .vmem S50x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S50x1024 .f32) (harg5 : arg5.IsWhole) (arg6 : Memref sig .tc .vmem S50x1024 .f32) (harg6 : arg6.IsWhole) (hc0 : ¬cond0_0 i) (hc1 : cond0_1 i)
    (x0 : Vec F S50x2048 .f32) (x1 : Vec F S1024x2048 .f32) (x2 : Vec F S1x1024 .f32) (xs0 : Vec F S50x1024 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread, View.ld_unit_zero (S := S50x2048) hz, View.ld_unit_zero (S := S1024x2048) hz, View.ld_unit_zero (S := S50x1024) hz]

/-- and the output block is the closing value of the stepped accumulator and the bias block. -/
theorem out_last (c : Dev nD) (i : grid0.Coords) (arg2 : Memref sig .tc .vmem S50x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S50x1024 .f32) (harg5 : arg5.IsWhole) (arg6 : Memref sig .tc .vmem S50x1024 .f32) (harg6 : arg6.IsWhole) (hc0 : ¬cond0_0 i) (hc1 : cond0_1 i)
    (x0 : Vec F S50x2048 .f32) (x1 : Vec F S1024x2048 .f32) (x2 : Vec F S1x1024 .f32) (xs0 : Vec F S50x1024 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S50x2048) hz, View.ld_unit_zero (S := S1024x2048) hz, View.ld_unit_zero (S := S1x1024) hz, View.ld_unit_zero (S := S50x1024) hz, View.readCov_unit_zero (S := S50x1024) _ hz]

end Cert.KernelIdeal.Pieces

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Payloads.lean ====
/-
  The three values the kernel body stores, read at an entry, at the ideal instance (a float an extended real, a
  change of format the identity): the reset block is zero; the accumulation step adds, to the accumulator at
  `(p, q)`, the product of row `p` of the activation block with row `q` of the weight block (the weight block is
  transposed before the product, so its ROWS are contracted); the last step adds the bias row.
-/
import proofs.«101963_j30399778521256_1_alg».proof.Proof.Gen.KernelIdeal.Skeleton
import proofs.«101963_j30399778521256_1_alg».proof.Proof.LibRowOps
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The block the first reduction step stores before accumulating: zero everywhere. -/
theorem reset_apply (j : S50x1024.Idx) : k0_pay1 (F := Ideal) j = 0 := by
  unfold k0_pay1
  rw [shapeCast_self]
  exact Ideal.ofBits_zero_f32

/-- One reduction step at `(p, q)`: the accumulator there plus row `p` of `x` against row `q` of `w`. -/
theorem step_apply (x : Vec Ideal S50x2048 .f32) (w : Vec Ideal S1024x2048 .f32) (acc : Vec Ideal S50x1024 .f32)
    (p : Fin 50) (q : Fin 1024) :
    k0_pay2 (F := Ideal) x w acc (ix2 p q) = acc (ix2 p q) + ∑ kk : Fin 2048, x (ix2 p kk) * w (ix2 q kk) := by
  unfold k0_pay2
  rw [shapeCast_self]
  refine congrArg (acc (ix2 p q) + ·) ?_
  refine (Cert.LibRowOps.matmul_plain_zero_apply 50 2048 1024 _ _ p q).trans ?_
  refine Finset.sum_congr rfl fun kk _ => ?_
  refine congrArg (x (ix2 p kk) * ·) ?_
  exact transpose_apply [1, 0] _ transposes_S1024x2048_p1_0_S2048x1024 (ix2 kk q) (ix2 q kk)
    (fun b => by match b with | ⟨0, _⟩ => rfl | ⟨1, _⟩ => rfl)

/-- The closing step at `(p, q)`: the accumulator there plus entry `q` of the bias row. -/
theorem close_apply (acc : Vec Ideal S50x1024 .f32) (bv : Vec Ideal S1x1024 .f32) (p : Fin 50) (q : Fin 1024) :
    k0_pay3 (F := Ideal) acc bv (ix2 p q) = acc (ix2 p q) + bv (ix2 0 q) := by
  unfold k0_pay3
  rw [shapeCast_self]
  refine congrArg (acc (ix2 p q) + ·) ?_
  exact broadcastTo_apply bv broadcasts_S1x1024_S50x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

end Cert.KernelIdeal.Payloads

end
-- ==== Proof.BlockedDot.lean ====
/-
  The arithmetic of a contraction done in stretches. A row of 8192 products is summed either at once or as four
  consecutive stretches of 2048, and a row of the weight matrix is addressed as tile `q` of 1024 rows plus a row
  inside the tile. Over the extended reals addition is commutative and associative, so the two groupings of the
  same products agree with no finiteness assumption.
-/
import Idealize.ShloMosaic.Lib.ValueIdx
import Idealize.ShloMosaic.PureOps.Ideal

noncomputable section

namespace Cert.BlockedDot

open Idealize.ShloMosaic Idealize.ShloMosaic.ValueIdx

/-- Column `kk` of the `s`-th stretch of 2048 columns (total in `s`: reduced mod 8192, the identity for `s < 4`). -/
def col (s : ℕ) (kk : Fin 2048) : Fin 8192 := ⟨(2048 * s + kk.val) % 8192, Nat.mod_lt _ (by norm_num)⟩

/-- Row `oo` of the `q`-th tile of 1024 rows (total in `q`: reduced mod 8192, the identity for `q < 8`). -/
def row (q : ℕ) (oo : Fin 1024) : Fin 8192 := ⟨(1024 * q + oo.val) % 8192, Nat.mod_lt _ (by norm_num)⟩

theorem col_val (s : ℕ) (hs : s < 4) (kk : Fin 2048) : (col s kk).val = 2048 * s + kk.val := by
  have := kk.isLt
  show (2048 * s + kk.val) % 8192 = _
  omega

theorem row_val (q : ℕ) (hq : q < 8) (oo : Fin 1024) : (row q oo).val = 1024 * q + oo.val := by
  have := oo.isLt
  show (1024 * q + oo.val) % 8192 = _
  omega

variable (X : (⟨2, ![50, 8192]⟩ : Shape).Idx → EReal) (W : (⟨2, ![8192, 8192]⟩ : Shape).Idx → EReal)

/-- Row `b` of `X` against row `o` of `W` over the `s`-th stretch of columns. -/
def stretchDot (b : Fin 50) (o : Fin 8192) (s : ℕ) : EReal :=
  ∑ kk : Fin 2048, X (ix2 b (col s kk)) * W (ix2 o (col s kk))

/-- The whole row product is the sum of its four stretches. -/
theorem dot_eq_stretches (b : Fin 50) (o : Fin 8192) :
    ∑ k : Fin 8192, X (ix2 b k) * W (ix2 o k) = ∑ s ∈ Finset.range 4, stretchDot X W b o s := by
  rw [← Fin.sum_univ_eq_sum_range (fun s => stretchDot X W b o s) 4]
  unfold stretchDot
  rw [← Fintype.sum_prod_type (f := fun p : Fin 4 × Fin 2048 => X (ix2 b (col p.1.val p.2)) * W (ix2 o (col p.1.val p.2)))]
  rw [← Equiv.sum_comp (finProdFinEquiv (m := 4) (n := 2048)) (fun k : Fin 8192 => X (ix2 b k) * W (ix2 o k))]
  refine Finset.sum_congr rfl fun p _ => ?_
  have e : (finProdFinEquiv (m := 4) (n := 2048) p : Fin 8192) = col p.1.val p.2 := Fin.ext (by
    rw [col_val _ p.1.isLt]
    show p.2.val + 2048 * p.1.val = _
    omega)
  rw [e]

end Cert.BlockedDot

end
-- ==== Proof.Blocks.lean ====
/-
  What the body is handed at a grid point, in terms of the argument arrays. The grid runs the row tiles of the
  weight matrix slowest and the column stretches fastest, so point `t` is tile `t / 4`, stretch `t % 4`: the
  activation block is every row of `x` over that stretch of columns, the weight block is that tile's rows over the
  same stretch, and the bias block is that tile's entries of the bias, which the host laid out as one row.
-/
import proofs.«101963_j30399778521256_1_alg».proof.Proof.Gen.KernelIdeal.Frame
import proofs.«101963_j30399778521256_1_alg».proof.Proof.BlockedDot
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Cert.BlockedDot (col row col_val row_val)

variable {F : FTy → Type} [FloatOps F]
variable (m : (ℓ : Loc nD τ sig) → Buf (Elt F) ℓ)

/-- The three argument arrays as launched, and the blocks handed to the body at point `t`, by their literal types. -/
abbrev xarr (c : Dev nD) : Vec F S50x8192 .f32 := m ((c : Thread nD τ).loc main_arg0)
abbrev warr (c : Dev nD) : Vec F S8192x8192 .f32 := m ((c : Thread nD τ).loc main_arg1)
abbrev barr (c : Dev nD) : Vec F S8192 .f32 := m ((c : Thread nD τ).loc main_arg2)
abbrev xblk (c : Dev nD) (t : Fin cfg0.N) : Vec F S50x2048 .f32 := iblk m c 0 t
abbrev wblk (c : Dev nD) (t : Fin cfg0.N) : Vec F S1024x2048 .f32 := iblk m c 1 t
abbrev bblk (c : Dev nD) (t : Fin cfg0.N) : Vec F S1x1024 .f32 := iblk m c 2 t

/-- The block indices of the four windows at a point: tile `t / 4`, stretch `t % 4` (decided over the grid). -/
theorem index_x : ∀ t : Fin cfg0.N, win0_0.index t 0 = 0 ∧ win0_0.index t 1 = t.val % 4 :=
  (by decide +kernel : ∀ t : Fin grid0.N, win0_0.index t 0 = 0 ∧ win0_0.index t 1 = t.val % 4)
theorem index_w : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem index_b : ∀ t : Fin cfg0.N, win0_2.index t 0 = 0 ∧ win0_2.index t 1 = t.val / 4 :=
  (by decide +kernel : ∀ t : Fin grid0.N, win0_2.index t 0 = 0 ∧ win0_2.index t 1 = t.val / 4)
theorem index_o : ∀ t : Fin cfg0.N, win0_3.index t 0 = 0 ∧ win0_3.index t 1 = t.val / 4 :=
  (by decide +kernel : ∀ t : Fin grid0.N, win0_3.index t 0 = 0 ∧ win0_3.index t 1 = t.val / 4)

theorem lt32 (t : Fin cfg0.N) : t.val < 32 := lt_of_lt_of_eq t.isLt (show cfg0.N = 32 from N_0)

/-- The activation block: row `p`, column `kk` of stretch `t % 4`. -/
theorem xblk_apply (c : Dev nD) (t : Fin cfg0.N) (p : Fin 50) (kk : Fin 2048) :
    xblk m c t (ix2 p kk) = xarr m c (ix2 p (col (t.val % 4) kk)) := by
  show iblk m c 0 t (ix2 p kk) = _
  unfold iblk
  rw [View.read_apply]
  show V m c main_arg0 _ = m ((c : Thread nD τ).loc main_arg0) _
  rw [V_main_arg0 m c]
  refine congrArg (m ((c : Thread nD τ).loc main_arg0)) (funext fun a => Fin.ext ?_)
  match a with
  | ⟨0, _⟩ => show win0_0.index t 0 * 50 + 1 * p.val = p.val; rw [(index_x t).1]; omega
  | ⟨1, _⟩ =>
    show win0_0.index t 1 * 2048 + 1 * kk.val = (col (t.val % 4) kk).val
    rw [(index_x t).2, col_val _ (Nat.mod_lt _ (by norm_num))]; omega

/-- The weight block: row `oo` of tile `t / 4`, column `kk` of stretch `t % 4`. -/
theorem wblk_apply (c : Dev nD) (t : Fin cfg0.N) (oo : Fin 1024) (kk : Fin 2048) :
    wblk m c t (ix2 oo kk) = warr m c (ix2 (row (t.val / 4) oo) (col (t.val % 4) kk)) := by
  have hN := lt32 t
  show iblk m c 1 t (ix2 oo kk) = _
  unfold iblk
  rw [View.read_apply]
  show V m c main_arg1 _ = m ((c : Thread nD τ).loc main_arg1) _
  rw [V_main_arg1 m c]
  refine congrArg (m ((c : Thread nD τ).loc main_arg1)) (funext fun a => Fin.ext ?_)
  match a with
  | ⟨0, _⟩ =>
    show win0_1.index t 0 * 1024 + 1 * oo.val = (row (t.val / 4) oo).val
    rw [(index_w t).1, row_val _ (by omega)]; omega
  | ⟨1, _⟩ =>
    show win0_1.index t 1 * 2048 + 1 * kk.val = (col (t.val % 4) kk).val
    rw [(index_w t).2, col_val _ (Nat.mod_lt _ (by norm_num))]; omega

/-- The bias as the region finds it: the host's reshape of the bias vector to one row. -/
theorem bias_row (c : Dev nD) :
    (V m c main_v0 : Vec F S1x8192 .f32) = shapeCast S1x8192 (m ((c : Thread nD τ).loc main_arg2)) shapeCasts_S8192_S1x8192 := by
  dsimp only [V, hostOps0]
  after_results
  rfl

/-- The bias block: entry `oo` of tile `t / 4` of the bias vector. -/
theorem bblk_apply (c : Dev nD) (t : Fin cfg0.N) (oo : Fin 1024) :
    bblk m c t (ix2 0 oo) = barr m c (ix1 (row (t.val / 4) oo)) := by
  have hN := lt32 t
  show iblk m c 2 t (ix2 0 oo) = _
  unfold iblk
  rw [View.read_apply]
  show (V m c main_v0 : Vec F S1x8192 .f32) _ = m ((c : Thread nD τ).loc main_arg2) _
  rw [bias_row m c]
  refine shapeCast_apply _ _ _ (ix1 (row (t.val / 4) oo)) ?_
  rw [Shape.rowMajor_val_two, Shape.rowMajor_val_one]
  show (row (t.val / 4) oo).val = (win0_2.index t 0 * 1 + 1 * 0) * 8192 + (win0_2.index t 1 * 1024 + 1 * oo.val)
  rw [(index_b t).1, (index_b t).2, row_val _ (by omega)]; omega

end Cert.KernelIdeal.Blocks

end
-- ==== Proof.Accumulate.lean ====
/-
  The accumulator over a tile's four reduction steps. Point `n` adds, at entry `(p, q)` of the accumulator, the
  product of row `p` of `x` with row `q` of tile `n / 4` of `w` over stretch `n % 4`; the first step of a tile
  starts from zero. So after the tile's last step the accumulator holds the whole row product, and the output block
  written there is that product plus the tile's bias entries.
-/
import proofs.«101963_j30399778521256_1_alg».proof.Proof.Gen.KernelIdeal.Value
import proofs.«101963_j30399778521256_1_alg».proof.Proof.Pieces
import proofs.«101963_j30399778521256_1_alg».proof.Proof.Payloads
import proofs.«101963_j30399778521256_1_alg».proof.Proof.Blocks
import proofs.«101963_j30399778521256_1_alg».proof.Proof.BlockedDot

noncomputable section

namespace Cert.KernelIdeal.Accumulate

open Cert.KernelIdeal Cert.KernelIdeal.Gen Cert.KernelIdeal.Value Idealize.ShloMosaic Idealize.ShloMosaic.TcCoe Idealize.SL.Sem
open Idealize.ShloMosaic.ValueIdx
open Cert.BlockedDot (col row stretchDot)
open Cert.KernelIdeal.Blocks (xarr warr barr xblk wblk bblk)

variable (m : (ℓ : Loc nD τ sig) → Buf (Elt Ideal) ℓ)

/-- What point `n` adds to entry `i` of the accumulator. -/
def addend (c : Dev nD) (n : ℕ) (i : S50x1024.Idx) : EReal :=
  stretchDot (xarr m c) (warr m c) (i 0) (row (n / 4) (i 1)) (n % 4)

/-- One step at point `t`, from any accumulator: the accumulator plus the point's addend. -/
theorem step_at (c : Dev nD) (t : Fin cfg0.N) (acc : Vec Ideal S50x1024 .f32) (p : Fin 50) (q : Fin 1024) :
    k0_pay2 (F := Ideal) (xblk m c t) (wblk m c t) acc (ix2 p q) = acc (ix2 p q) + addend m c t.val (ix2 p q) := by
  refine (Payloads.step_apply (xblk m c t) (wblk m c t) acc p q).trans ?_
  refine congrArg (acc (ix2 p q) + ·) ?_
  show _ = ∑ kk : Fin 2048, xarr m c (ix2 p (col (t.val % 4) kk)) * warr m c (ix2 (row (t.val / 4) q) (col (t.val % 4) kk))
  exact Finset.sum_congr rfl fun kk _ => congrArg₂ (· * ·) (Blocks.xblk_apply m c t p kk) (Blocks.wblk_apply m c t q kk)

/-- At the first step of a tile the scratch is left at zero plus the point's addend, whatever it held. -/
theorem scAt_first (c : Dev nD) (n : ℕ) (hb : n < cfg0.N) (h0 : n % 4 = 0) (acc : Vec Ideal S50x1024 .f32)
    (i : S50x1024.Idx) : scAt0_0 m c n hb acc i = 0 + addend m c n i := by
  have h1 : ¬n % 4 = 3 := by omega
  obtain ⟨p, q, rfl⟩ : ∃ (p : Fin 50) (q : Fin 1024), i = ix2 p q := ⟨i 0, i 1, eq_ix2 i⟩
  unfold scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))) (ix2 p q)).trans ?_
  refine (step_at m c (⟨n, hb⟩ : Fin cfg0.N) (k0_pay1 (F := Ideal)) p q).trans ?_
  exact congrArg (· + addend m c n (ix2 p q)) (Payloads.reset_apply (ix2 p q))

/-- At a later step of a tile the scratch is left at what it held plus the point's addend. -/
theorem scAt_later (c : Dev nD) (n : ℕ) (hb : n < cfg0.N) (h0 : ¬n % 4 = 0) (acc : Vec Ideal S50x1024 .f32)
    (i : S50x1024.Idx) : scAt0_0 m c n hb acc i = acc i + addend m c n i := by
  obtain ⟨p, q, rfl⟩ : ∃ (p : Fin 50) (q : Fin 1024), i = ix2 p q := ⟨i 0, i 1, eq_ix2 i⟩
  unfold scAt0_0
  rw [dif_neg h0]
  by_cases h1 : n % 4 = 3
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p q)).trans ?_
    exact step_at m c (⟨n, hb⟩ : Fin cfg0.N) acc p q
  · rw [dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p q)).trans ?_
    exact step_at m c (⟨n, hb⟩ : Fin cfg0.N) acc p q

/-- The scratch after point `t`: the addends of the tile's points up to `t`, from zero. -/
theorem scratch_after (c : Dev nD) (t : Fin cfg0.N) (i : S50x1024.Idx) :
    (outsAt0 m c t.val t.isLt).2 i = 0 + ∑ s ∈ Finset.range (t.val % 4 + 1), addend m c (4 * (t.val / 4) + s) i := by
  rw [soutsAt0_0_eq m c t]
  exact Pipeline.accAt_add_apply (ι := S50x1024.Idx) (β := EReal)
    (fun n h => scAt0_0 m c n h (VS0_0.read (Elt Ideal) VS0_0.junk)) (scAt0_0 m c) (fun _ => 0) (addend m c)
    (4 * (t.val / 4)) 3
    (fun h i => scAt_first m c _ h (Nat.mul_mod_right 4 _) _ i)
    (fun n h acc i hlo hhi => scAt_later m c n h (by omega) acc i)
    (t.val % 4) (by omega) _ i

/-- After a tile's last step the accumulator holds the whole product of row `p` of `x` with row `q` of the tile. -/
theorem scratch_last_eq (c : Dev nD) (t : Fin cfg0.N) (h1 : t.val % 4 = 3) (p : Fin 50) (q : Fin 1024) :
    (outsAt0 m c t.val t.isLt).2 (ix2 p q)
      = ∑ k : Fin 8192, xarr m c (ix2 p k) * warr m c (ix2 (row (t.val / 4) q) k) := by
  rw [scratch_after m c t (ix2 p q), zero_add, h1, Cert.BlockedDot.dot_eq_stretches]
  refine Finset.sum_congr rfl fun s hs => ?_
  rw [Finset.mem_range] at hs
  unfold addend
  rw [show (4 * (t.val / 4) + s) / 4 = t.val / 4 by omega, show (4 * (t.val / 4) + s) % 4 = s by omega]

/-- The output block stored at a tile's last step: the whole row product plus the tile's bias entry. -/
theorem out_last_eq (c : Dev nD) (t : Fin cfg0.N) (h1 : t.val % 4 = 3) (p : Fin 50) (q : Fin 1024) :
    (outsAt0 m c t.val t.isLt).1 (ix2 p q)
      = (∑ k : Fin 8192, xarr m c (ix2 p k) * warr m c (ix2 (row (t.val / 4) q) k)) + barr m c (ix1 (row (t.val / 4) q)) := by
  have h0 : ¬t.val % 4 = 0 := by omega
  rw [← scratch_last_eq m c t h1 p q, ← Blocks.bblk_apply m c t q]
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _) (ix2 p q)).trans ?_
  refine (Payloads.close_apply _ (bblk m c t) p q).trans ?_
  refine congrArg (· + bblk m c t (ix2 0 q)) ?_
  exact (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _) (ix2 p q)).symm

end Cert.KernelIdeal.Accumulate

end
-- ==== Proof.Linear.lean ====
/-
  The function both programs compute, entry by entry: row `b` of the activations against row `o` of the weights,
  summed over all 8192 columns, plus entry `o` of the bias.
-/
import Idealize.ShloMosaic.Lib.ValueIdx
import Idealize.ShloMosaic.PureOps.Ideal

noncomputable section

namespace Cert.Linear

open Idealize.ShloMosaic Idealize.ShloMosaic.ValueIdx

/-- `x · wᵀ + bias` over the extended reals, at an entry. -/
def linear (X : (⟨2, ![50, 8192]⟩ : Shape).Idx → EReal) (W : (⟨2, ![8192, 8192]⟩ : Shape).Idx → EReal)
    (B : (⟨1, ![8192]⟩ : Shape).Idx → EReal) : (⟨2, ![50, 8192]⟩ : Shape).Idx → EReal :=
  fun i => (∑ k : Fin 8192, X (ix2 (i 0) k) * W (ix2 (i 1) k)) + B (ix1 (i 1))

theorem linear_apply (X : (⟨2, ![50, 8192]⟩ : Shape).Idx → EReal) (W : (⟨2, ![8192, 8192]⟩ : Shape).Idx → EReal)
    (B : (⟨1, ![8192]⟩ : Shape).Idx → EReal) (b : Fin 50) (o : Fin 8192) :
    linear X W B (ix2 b o) = (∑ k : Fin 8192, X (ix2 b k) * W (ix2 o k)) + B (ix1 o) := rfl

end Cert.Linear

end
-- ==== Proof.KernelValue.lean ====
/-
  From blocks to the array. The output is written back only after a tile's last reduction step, block `(0, t / 4)`
  of 50 by 1024 entries; those eight blocks tile the 50 by 8192 result, and each holds the linear map's entries of its
  tile. So the result array ends holding `x · wᵀ + bias` everywhere.
-/
import proofs.«101963_j30399778521256_1_alg».proof.Proof.Accumulate
import proofs.«101963_j30399778521256_1_alg».proof.Proof.Linear

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.BlockedDot (row row_val)
open Cert.KernelIdeal.Blocks (xarr warr barr)

variable (m : (ℓ : Loc nD τ sig) → Buf (Elt Ideal) ℓ) (ρ : Dev nD → PrngReg)

/-- The result array's final contents: the linear map of the three argument arrays as launched. -/
abbrev result (c : Dev nD) : Buf (Elt Ideal) ((c : Thread nD τ).loc main_v1) :=
  Cert.Linear.linear (xarr m c) (warr m c) (barr m c)

/-- An entry of the block written back after a tile's last step is the linear map at that entry's place in the array. -/
theorem flushed_entry (c : Dev nD) (t : Fin cfg0.N) (h1 : t.val % 4 = 3) (p : Fin 50) (q : Fin 1024) :
    (outsAt0 m c t.val t.isLt).1 (ix2 p q) = result m c (((cfg0.win 3).blk t).view.emb (ix2 p q)) := by
  have hN := Blocks.lt32 t
  have e : ((cfg0.win 3).blk t).view.emb (ix2 p q) = ix2 p (row (t.val / 4) q) := by
    funext a; apply Fin.ext
    match a with
    | ⟨0, _⟩ => show win0_3.index t 0 * 50 + 1 * p.val = p.val; rw [(Blocks.index_o t).1]; omega
    | ⟨1, _⟩ =>
      show win0_3.index t 1 * 1024 + 1 * q.val = (row (t.val / 4) q).val
      rw [(Blocks.index_o t).2, row_val _ (by omega)]; omega
  rw [e, Accumulate.out_last_eq m c t h1 p q]
  rfl

/-- What a writing point writes back is its block of the linear map. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  rw [flushed3]
  funext j
  show (outsAt0 m c t.val t.isLt).1 j = result m c (((cfg0.win 3).blk t).view.emb j)
  rw [eq_ix2 j]
  exact flushed_entry m c t h1 (j 0) (j 1)

/-- An entry of the array lies in point `t`'s block iff each coordinate lies in the block's range on its axis. -/
theorem mem_blk (t : Fin cfg0.N) (i : S50x8192.Idx) :
    i ∈ ((cfg0.win 3).blk t).view.set ↔ ∀ a : Fin 2, win0_3.index t a * S50x1024.size a ≤ (i a).val ∧ (i a).val < win0_3.index t a * S50x1024.size a + S50x1024.size a := by
  show i ∈ ((View.whole main_v1).slice (win0_3.rect t)).set ↔ _
  rw [View.set_slice_whole, Rect.mem_set_unit]
  exact Iff.rfl

/-- Every entry is in the block some writing point writes: column `o` belongs to tile `o / 1024`, written at that
    tile's last step. -/
theorem cover (i : S50x8192.Idx) :
    ∃ t : Fin cfg0.N, (cfg0.win 3).flush t = true ∧ i ∈ ((cfg0.win 3).blk t).view.set := by
  have hi0 : (i 0).val < 50 := (i 0).isLt
  have hi1 : (i 1).val < 8192 := (i 1).isLt
  have hN : cfg0.N = 32 := N_0
  have hlt : 4 * ((i 1).val / 1024) + 3 < cfg0.N := by rw [hN]; omega
  obtain ⟨e0, e1⟩ := Blocks.index_o ⟨4 * ((i 1).val / 1024) + 3, hlt⟩
  have hd : (4 * ((i 1).val / 1024) + 3) / 4 = (i 1).val / 1024 := by omega
  refine ⟨⟨4 * ((i 1).val / 1024) + 3, hlt⟩, (flush0_3 _).mpr (by show (4 * ((i 1).val / 1024) + 3) % 4 = 3; omega), ?_⟩
  rw [mem_blk]
  intro a
  match a with
  | ⟨0, _⟩ =>
    show win0_3.index ⟨4 * ((i 1).val / 1024) + 3, hlt⟩ 0 * 50 ≤ (i 0).val ∧ (i 0).val < win0_3.index ⟨4 * ((i 1).val / 1024) + 3, hlt⟩ 0 * 50 + 50
    rw [e0]; omega
  | ⟨1, _⟩ =>
    show win0_3.index ⟨4 * ((i 1).val / 1024) + 3, hlt⟩ 1 * 1024 ≤ (i 1).val ∧ (i 1).val < win0_3.index ⟨4 * ((i 1).val / 1024) + 3, hlt⟩ 1 * 1024 + 1024
    rw [e1]
    show (4 * ((i 1).val / 1024) + 3) / 4 * 1024 ≤ (i 1).val ∧ (i 1).val < (4 * ((i 1).val / 1024) + 3) / 4 * 1024 + 1024
    rw [hd]; omega

/-- The result array after the run is the linear map of the arguments. -/
theorem final (c : Dev nD) : (dats m 0 c).arrAt 3 cfg0.N = result m c :=
  (dats m 0 c).arrAt_eq_of_cover 3 (result m c) (flushed_eq m c) cover

/-- The run, read: the result array at the linear map, the three arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.RefValue.lean ====
/-
  The reference, read entry by entry: the host's contraction of the two last axes is the sum over the shared column
  index, the bias is broadcast along the rows, and the two are added — the linear map of `Linear.lean`.
-/
import proofs.«101963_j30399778521256_1_alg».proof.Proof.Gen.ReferenceIdeal.Read
import proofs.«101963_j30399778521256_1_alg».proof.Proof.Linear

noncomputable section

namespace Cert.ReferenceIdeal.RefValue

open Cert.ReferenceIdeal Cert.ReferenceIdeal.Read Idealize.ShloMosaic Idealize.ShloMosaic.ValueIdx

/-- The reference's result is `x · wᵀ + bias`. -/
theorem ref_eq (x0 : (⟨S50x8192, .f32⟩ : BufTy).Contents (Elt Ideal)) (x1 : (⟨S8192x8192, .f32⟩ : BufTy).Contents (Elt Ideal))
    (x2 : (⟨S8192, .f32⟩ : BufTy).Contents (Elt Ideal)) :
    val_main_v3 (F := Ideal) x0 x1 x2 = Cert.Linear.linear x0 x1 x2 := by
  funext i
  obtain ⟨p, o, rfl⟩ : ∃ (p : Fin 50) (o : Fin 8192), i = ix2 p o := ⟨i 0, i 1, eq_ix2 i⟩
  rw [val_main_v3_apply, val_main_v0_apply, val_main_v2_apply, val_main_v1_apply, Cert.Linear.linear_apply]
  have el : ∀ k : Fin 8192, lidx_main_v0 (ix2 p o) k = ix2 p k := fun k =>
    funext fun a => Fin.ext (by match a with | ⟨0, _⟩ => rfl | ⟨1, _⟩ => rfl)
  have er : ∀ k : Fin 8192, ridx_main_v0 (ix2 p o) k = ix2 o k := fun k =>
    funext fun a => Fin.ext (by match a with | ⟨0, _⟩ => rfl | ⟨1, _⟩ => rfl)
  have eb : idx_main_v1 (idx_main_v2 (ix2 p o)) = ix1 o :=
    funext fun a => Fin.ext (by match a with | ⟨0, _⟩ => rfl)
  simp only [el, er, eb]
  rfl

end Cert.ReferenceIdeal.RefValue

end
-- ==== Proof.lean ====
/-
  A linear layer `y = x · wᵀ + bias`, x : [50, 8192], w : [8192, 8192], bias : [8192].

  The kernel walks a grid of 8 row tiles of `w` (1024 rows each) by 4 column stretches (2048 columns each). For a
  tile it keeps an accumulator: zero before the first stretch, and at each stretch the product of the activation
  block with the transposed weight block is added; after the fourth stretch the bias entries of the tile are added
  and the 50 by 1024 block is written to the result. Read over the extended reals (a change of float format is the
  identity there) entry `(b, o)` of the result is therefore
      (((0 + S₀) + S₁) + S₂) + S₃ + bias o,   Sₛ = Σ_{kk < 2048} x (b, 2048 s + kk) · w (o, 2048 s + kk),
  while the reference contracts the whole column index at once: Σ_{k < 8192} x (b, k) · w (o, k) + bias o. The two are
  the same products grouped differently, and addition of extended reals is commutative and associative, so they agree
  for all inputs; finiteness of the inputs is not used.

  The frames of the two kernel programs are the generated ones; the reference's frame is its generated run with the
  result dropped; the idealization rewrote nothing, so the preservation claim is trivial.
-/
import proofs.«101963_j30399778521256_1_alg».proof.Defs
import proofs.«101963_j30399778521256_1_alg».proof.Proof.Gen.Kernel
import proofs.«101963_j30399778521256_1_alg».proof.Proof.Gen.Kernel.Skeleton
import proofs.«101963_j30399778521256_1_alg».proof.Proof.Gen.Kernel.Launch
import proofs.«101963_j30399778521256_1_alg».proof.Proof.Gen.Kernel.Points
import proofs.«101963_j30399778521256_1_alg».proof.Proof.Gen.Kernel.Frame
import proofs.«101963_j30399778521256_1_alg».proof.Proof.Gen.KernelIdeal
import proofs.«101963_j30399778521256_1_alg».proof.Proof.Gen.KernelIdeal.Skeleton
import proofs.«101963_j30399778521256_1_alg».proof.Proof.Gen.KernelIdeal.Launch
import proofs.«101963_j30399778521256_1_alg».proof.Proof.Gen.KernelIdeal.Points
import proofs.«101963_j30399778521256_1_alg».proof.Proof.Gen.KernelIdeal.Frame
import proofs.«101963_j30399778521256_1_alg».proof.Proof.Gen.ReferenceIdeal
import proofs.«101963_j30399778521256_1_alg».proof.Proof.Gen.Pre_finite_inputs
import proofs.«101963_j30399778521256_1_alg».proof.Proof.Gen.KernelIdeal.Value
import proofs.«101963_j30399778521256_1_alg».proof.Proof.Gen.ReferenceIdeal.Run
import proofs.«101963_j30399778521256_1_alg».proof.Proof.Gen.ReferenceIdeal.Read
import proofs.«101963_j30399778521256_1_alg».proof.Proof.KernelValue
import proofs.«101963_j30399778521256_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the linear map of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
